-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000 : Shape := ⟨1, ![1000000]⟩
abbrev S1000000x64 : Shape := ⟨2, ![1000000, 64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel

variable [Facts]

def fn {F : FTy → Type} [FloatOps F] (main_arg0 : IVec S1000000 32) (main_arg1 : FVec F S1000000x64 .f32) (main_arg2 : IVec S1000000 32) (main_arg3 : FVec F S1000000x64 .f32) : IVec S_ 1 :=
  let main_v0 : FVec F S1000000x64 .f32 := Host.absf main_arg1
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S1000000x64 .f32 := Host.absf main_arg3
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  main_v8
-- ==== Kernel.lean ====
abbrev S1000000 : Shape := ⟨1, ![1000000]⟩
abbrev S1000000x64 : Shape := ⟨2, ![1000000, 64]⟩
abbrev S500000x128 : Shape := ⟨2, ![500000, 128]⟩
abbrev S500000x2 : Shape := ⟨2, ![500000, 2]⟩
abbrev S16x128 : Shape := ⟨2, ![16, 128]⟩
abbrev S10000x2 : Shape := ⟨2, ![10000, 2]⟩
abbrev S10000x128 : Shape := ⟨2, ![10000, 128]⟩
abbrev S8x128 : Shape := ⟨2, ![8, 128]⟩
abbrev S10000x64 : Shape := ⟨2, ![10000, 64]⟩
abbrev S10000 : Shape := ⟨1, ![10000]⟩
abbrev S10000x1 : Shape := ⟨2, ![10000, 1]⟩
abbrev S2 : Shape := ⟨1, ![2]⟩
abbrev S1x2 : Shape := ⟨2, ![1, 2]⟩
abbrev S_ : Shape := ⟨0, ![]⟩

abbrev nBuf : Space → Nat
  | .hbm => 14
  | .vmem => 9
  | .smem => 0
  | _ => 0

abbrev bufTy : (tb : Table) → Fin (tcTables nBuf tb) → BufTy
  | .hbm, ⟨0, _⟩ => ⟨S1000000, .i32⟩
  | .hbm, ⟨1, _⟩ => ⟨S1000000x64, .f32⟩
  | .hbm, ⟨2, _⟩ => ⟨S1000000, .i32⟩
  | .hbm, ⟨3, _⟩ => ⟨S1000000x64, .f32⟩
  | .hbm, ⟨4, _⟩ => ⟨S500000x128, .f32⟩
  | .hbm, ⟨5, _⟩ => ⟨S500000x128, .f32⟩
  | .hbm, ⟨6, _⟩ => ⟨S1000000, .i1⟩
  | .hbm, ⟨7, _⟩ => ⟨S1000000, .i32⟩
  | .hbm, ⟨8, _⟩ => ⟨S500000x2, .i32⟩
  | .hbm, ⟨9, _⟩ => ⟨S16x128, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S10000x2, .i32⟩
  | .local _ .vmem, ⟨1, _⟩ => ⟨S10000x2, .i32⟩
  | .local _ .vmem, ⟨2, _⟩ => ⟨S10000x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | _, _ => ⟨S1000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg1 : BitVec 32 := BitVec.ofNat 32 (i 1).val
  let c24_i32 : BitVec 32 := 24#32
  let v32 : BitVec 1 := Scalar.cmpi .eq arg1 c24_i32
  let v33 : BitVec 32 := Scalar.extui v32
  let c0_i32_15 : BitVec 32 := 0#32
  let v34 : BitVec 1 := Scalar.cmpi .ne v33 c0_i32_15
  v34

def cc0_transform_0 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S10000x2 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S1000000x64_S500000x128 : S1000000x64.ShapeCasts S500000x128
  natLt_1_32 : 1 < 32
  shapeCasts_S1000000_S500000x2 : S1000000.ShapeCasts S500000x2
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  slices_S10000x128_o0_0_S10000x64 : S10000x128.Slices ![0, 0] S10000x64
  reduces_S10000x64_S10000 : S10000x64.Reduces [1] S10000
  shapeCasts_S10000_S10000x1 : S10000.ShapeCasts S10000x1
  slices_S10000x128_o0_64_S10000x64 : S10000x128.Slices ![0, 64] S10000x64
  concatenates_S10000x1_S10000x1_S10000x2_d1 : Shape.Concatenates [S10000x1, S10000x1] S10000x2 1
  inb_S10000x2_S10000x2_0_0 : ∀ a, (![0, 0] : Fin 2 → Nat) a + S10000x2.size a ≤ S10000x2.size a
  h_S10000x2 : 0 < S10000x2.numel
  shapeCasts_S10000x2_S10000x2 : S10000x2.ShapeCasts S10000x2
  reduces_S10000x2_S2 : S10000x2.Reduces [0] S2
  shapeCasts_S2_S1x2 : S2.ShapeCasts S1x2
  inb_S8x128_S1x2_0_0 : ∀ a, (![0, 0] : Fin 2 → Nat) a + S1x2.size a ≤ S8x128.size a
  h_S1x2 : 0 < S1x2.numel
  shapeCasts_S1x2_S1x2 : S1x2.ShapeCasts S1x2
  reducesTo_S16x128_S_d0_1 : S16x128.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x2.size a ≤ S500000x2.size a
  hwx0_0 : ∀ i : grid0.Coords, EltTy.bits .i32 = 32 ∨ (Rect.block (s := S500000x2) S10000x2.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S500000x128.size a
  hwx0_1 : ∀ i : grid0.Coords, EltTy.bits .f32 = 32 ∨ (Rect.block (s := S500000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S500000x128.size a
  hwx0_2 : ∀ i : grid0.Coords, EltTy.bits .f32 = 32 ∨ (Rect.block (s := S500000x128) S10000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S16x128.size a
  hwx0_3 : ∀ i : grid0.Coords, EltTy.bits .f32 = 32 ∨ (Rect.block (s := S16x128) S8x128.size (cc0_transform_3 i) (hinb0_3 i)).WholeWords (EltTy.packing .f32)

variable [Facts₀]

abbrev win0_0 : Pipeline.Window sig grid0 :=
  Pipeline.Window.ofSpec (Memref.whole main_v4) S10000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S10000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1000000 : Shape := ⟨1, ![1000000]⟩
abbrev S1000000x64 : Shape := ⟨2, ![1000000, 64]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S1000000, .i32⟩
  | .hbm, ⟨1, _⟩ => ⟨S1000000x64, .f32⟩
  | .hbm, ⟨2, _⟩ => ⟨S1000000, .i32⟩
  | .hbm, ⟨3, _⟩ => ⟨S1000000x64, .f32⟩
  | .hbm, ⟨4, _⟩ => ⟨S1000000x64, .f32⟩
  | .hbm, ⟨5, _⟩ => ⟨S1000000x64, .f32⟩
  | .hbm, ⟨6, _⟩ => ⟨S_, .f32⟩
  | .hbm, ⟨7, _⟩ => ⟨S1000000, .f32⟩
  | .hbm, ⟨8, _⟩ => ⟨S1000000, .i1⟩
  | .hbm, ⟨9, _⟩ => ⟨S_, .f32⟩
  | .hbm, ⟨10, _⟩ => ⟨S1000000, .f32⟩
  | .hbm, ⟨11, _⟩ => ⟨S1000000, .f32⟩
  | .hbm, ⟨12, _⟩ => ⟨S_, .f32⟩
  | .hbm, ⟨13, _⟩ => ⟨S1000000, .f32⟩
  | .hbm, ⟨14, _⟩ => ⟨S1000000, .f32⟩
  | .hbm, ⟨15, _⟩ => ⟨S1000000, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | _, _ => ⟨S1000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩

abbrev nD : Nat := 1
abbrev τ : Topo := Topo.v7x

variable {F : FTy → Type} [FloatOps F]

class Facts₀ : Prop where
  reducesTo_S1000000x64_S1000000_d1 : S1000000x64.ReducesTo [1] S1000000
  h_S_ : 0 < S_.numel
  bcast_S_S1000000 : S_.BroadcastsInDim S1000000 (![] : Fin 0 → Fin S1000000.rank)
  reducesTo_S1000000_S_d0 : S1000000.ReducesTo [0] S_

variable [Facts₀]

class Facts : Prop extends Facts₀ where

variable [Facts]
-- ==== Proof.Pieces.lean ====
/-
  What each control case of the body leaves in the accumulator, read as a value at any float instance.

  Every grid step ends with ONE store into the 1×2 corner of the 8×128 accumulator: entry (0, h) receives the store's
  payload, whose own load of the corner read what stood there before; every other entry keeps what stood there. So a
  step is one function `stepOver` of the contents before it. At a core's first step the body first fills the
  accumulator with the constant 0.0, and the step runs over that fill; at a core's last step the body copies the whole
  accumulator into the output block after the store.
-/
import proofs.«400209_j55611236548990_4_alg».proof.Proof.Gen.KernelIdeal.Frame
import Idealize.ShloMosaic.Lib.Pipeline.Value
import Idealize.ShloMosaic.Lib.ValueIdx
import Idealize.ShloMosaic.Lib.WritesUnit
import Idealize.ShloMosaic.Lib.Tactic

noncomputable section

namespace Cert.KernelIdeal.Acc

open Cert.KernelIdeal Cert.KernelIdeal.Gen Idealize.ShloMosaic Idealize.ShloMosaic.TcCoe Idealize.SL.Sem
open Idealize.ShloMosaic.Tactic Idealize.ShloMosaic.ValueIdx

variable {F : FTy → Type} [FloatOps F]

theorem hz : (![0, 0] : Fin 2 → Nat) = fun _ => 0 := funext fun a => by fin_cases a <;> rfl

/-- The 1×2 rectangle at the accumulator's origin: where every step stores. -/
abbrev corner : Rect S8x128 := Rect.unit (s := S8x128) ![0, 0] S1x2.size inb_S8x128_S1x2_0_0

/-- A store through the corner, read back: entries (0, 0) and (0, 1) read the payload, every other entry what the earlier
    stores left. -/
theorem read_corner_store {sg : RefSig} {κ : Kind} {sp : Space} (v : View sg κ sp S8x128 .f32) (f : v.ty.Contents (Elt F))
    (w : corner.shape.Idx → Elt F .f32) (L : List (View.Piece (Elt F) S8x128 .f32)) (y : S8x128.Idx) :
    v.read (Elt F) (v.writes (Elt F) f ((⟨corner, w⟩ : View.Piece (Elt F) S8x128 .f32) :: L)) y
      = if hy : (y 0).val = 0 ∧ (y 1).val < 2 then w (ix2 (0 : Fin 1) ⟨(y 1).val, hy.2⟩)
        else v.read (Elt F) (v.writes (Elt F) f L) y := by
  by_cases hy : (y 0).val = 0 ∧ (y 1).val < 2
  · rw [dif_pos hy]
    exact View.read_writes_cons_unit_of_mem v f inb_S8x128_S1x2_0_0 w L y (ix2 (0 : Fin 1) ⟨(y 1).val, hy.2⟩) rfl
      (fun a => by
        match a with
        | ⟨0, _⟩ => exact hy.1.trans (Nat.zero_add _).symm
        | ⟨1, _⟩ => exact (Nat.zero_add _).symm)
  · rw [dif_neg hy]
    by_cases h0 : (y 0).val = 0
    · exact View.read_writes_cons_unit_of_not_mem v f inb_S8x128_S1x2_0_0 w L y rfl (1 : Fin 2)
        (Or.inr (by
          show 0 + 2 ≤ (y 1).val
          have : ¬(y 1).val < 2 := fun h => hy ⟨h0, h⟩
          omega))
    · exact View.read_writes_cons_unit_of_not_mem v f inb_S8x128_S1x2_0_0 w L y rfl (0 : Fin 2)
        (Or.inr (by show 0 + 1 ≤ (y 0).val; omega))

/-- ONE STEP over contents `base`: the live entries receive the store's payload, computed from the three input blocks and
    from the corner of `base`; the others keep `base`. -/
def stepOver (base : Vec F S8x128 .f32) (x0 : Vec F S10000x2 .i32) (x1 x2 : Vec F S10000x128 .f32) : Vec F S8x128 .f32 :=
  fun y => if hy : (y 0).val = 0 ∧ (y 1).val < 2 then
      k0_pay2 x1 x2 x0 (View.ld base corner) (ix2 (0 : Fin 1) ⟨(y 1).val, hy.2⟩)
    else base y

/-- The fill a core's first step begins with. -/
abbrev zeroFill : Vec F S8x128 .f32 := k0_pay1 (F := F)

/-- A step in the middle of a core's run: over what the step before left. -/
theorem scratch_B (c : Dev nD) (i : grid0.Coords) (a2 : Memref sig .tc .vmem S10000x2 .i32) (h2 : a2.IsWhole) (a3 : Memref sig .tc .vmem S10000x128 .f32) (h3 : a3.IsWhole) (a4 : Memref sig .tc .vmem S10000x128 .f32) (h4 : a4.IsWhole) (a5 : Memref sig .tc .vmem S8x128 .f32) (h5 : a5.IsWhole) (a6 : Memref sig .tc .vmem S8x128 .f32) (h6 : a6.IsWhole) (hc0 : ¬cond0_0 i) (hc1 : ¬cond0_1 i)
    (x0 : Vec F S10000x2 .i32) (x1 x2 : Vec F S10000x128 .f32) (xs0 : Vec F S8x128 .f32) :
    sout0_B_0 c i a2 h2 a3 h3 a4 h4 a5 h5 a6 h6 hc0 hc1 x0 x1 x2 xs0 = stepOver xs0 x0 x1 x2 := by
  funext y
  unfold sout0_B_0 kernelRun0_B
  dsimp only
  sl_unfold_words
  refine (read_corner_store a6.view (h6.unread xs0) _ [] y).trans ?_
  unfold stepOver
  simp only [View.writes_nil, View.readAt_eq_ld, h2.read_unread, h3.read_unread, h4.read_unread, h6.read_unread,
    View.ld_unit_zero (S := S10000x128) hz, View.ld_unit_zero (S := S10000x2) hz]

/-- A core's last step: the same store, -/
theorem scratch_C (c : Dev nD) (i : grid0.Coords) (a2 : Memref sig .tc .vmem S10000x2 .i32) (h2 : a2.IsWhole) (a3 : Memref sig .tc .vmem S10000x128 .f32) (h3 : a3.IsWhole) (a4 : Memref sig .tc .vmem S10000x128 .f32) (h4 : a4.IsWhole) (a5 : Memref sig .tc .vmem S8x128 .f32) (h5 : a5.IsWhole) (a6 : Memref sig .tc .vmem S8x128 .f32) (h6 : a6.IsWhole) (hc0 : ¬cond0_0 i) (hc1 : cond0_1 i)
    (x0 : Vec F S10000x2 .i32) (x1 x2 : Vec F S10000x128 .f32) (xs0 : Vec F S8x128 .f32) :
    sout0_C_0 c i a2 h2 a3 h3 a4 h4 a5 h5 a6 h6 hc0 hc1 x0 x1 x2 xs0 = stepOver xs0 x0 x1 x2 := by
  funext y
  unfold sout0_C_0 kernelRun0_C
  dsimp only
  sl_unfold_words
  refine (read_corner_store a6.view (h6.unread xs0) _ [] y).trans ?_
  unfold stepOver
  simp only [View.writes_nil, View.readAt_eq_ld, h2.read_unread, h3.read_unread, h4.read_unread, h6.read_unread,
    View.ld_unit_zero (S := S10000x128) hz, View.ld_unit_zero (S := S10000x2) hz]

/-- and then the whole accumulator copied into the output block. -/
theorem out_C (c : Dev nD) (i : grid0.Coords) (a2 : Memref sig .tc .vmem S10000x2 .i32) (h2 : a2.IsWhole) (a3 : Memref sig .tc .vmem S10000x128 .f32) (h3 : a3.IsWhole) (a4 : Memref sig .tc .vmem S10000x128 .f32) (h4 : a4.IsWhole) (a5 : Memref sig .tc .vmem S8x128 .f32) (h5 : a5.IsWhole) (a6 : Memref sig .tc .vmem S8x128 .f32) (h6 : a6.IsWhole) (hc0 : ¬cond0_0 i) (hc1 : cond0_1 i)
    (x0 : Vec F S10000x2 .i32) (x1 x2 : Vec F S10000x128 .f32) (xs0 : Vec F S8x128 .f32) :
    out0_C_3 c i a2 h2 a3 h3 a4 h4 a5 h5 a6 h6 hc0 hc1 x0 x1 x2 xs0 = stepOver xs0 x0 x1 x2 := by
  rw [← scratch_C c i a2 h2 a3 h3 a4 h4 a5 h5 a6 h6 hc0 hc1 x0 x1 x2 xs0]
  unfold out0_C_3
  rw [View.read_writes_eq_canon _ _ _ (cover0_C_3 c i a2 h2 a3 h3 a4 h4 a5 h5 a6 h6 hc0 hc1 x0 x1 x2 xs0)]
  unfold sout0_C_0 kernelRun0_C
  dsimp only
  sl_unfold_words
  rw [View.canon_unit_zero hz]
  simp only [View.readAt_eq_ld, View.ld_unit_zero (S := S8x128) hz]

/-- The zero fill alone, read back. -/
theorem read_fill {sg : RefSig} {κ : Kind} {sp : Space} (v : View sg κ sp S8x128 .f32) (f : v.ty.Contents (Elt F)) :
    v.read (Elt F) (v.writes (Elt F) f
      [(⟨Rect.unit (s := S8x128) ![0, 0] S8x128.size inb_S8x128_S8x128_0_0, zeroFill⟩ : View.Piece (Elt F) S8x128 .f32)]) = zeroFill := by
  rw [View.read_writes_eq_canon _ _ _ (fun y => ⟨_, List.mem_singleton_self _, View.mem_set_unit_zero hz inb_S8x128_S8x128_0_0 y⟩),
    View.canon_unit_zero hz]

/-- A core's first step: the fill, then the step over it (the store's own load reads the fill back). -/
theorem scratch_A (c : Dev nD) (i : grid0.Coords) (a2 : Memref sig .tc .vmem S10000x2 .i32) (h2 : a2.IsWhole) (a3 : Memref sig .tc .vmem S10000x128 .f32) (h3 : a3.IsWhole) (a4 : Memref sig .tc .vmem S10000x128 .f32) (h4 : a4.IsWhole) (a5 : Memref sig .tc .vmem S8x128 .f32) (h5 : a5.IsWhole) (a6 : Memref sig .tc .vmem S8x128 .f32) (h6 : a6.IsWhole) (hc0 : cond0_0 i) (hc1 : ¬cond0_1 i)
    (x0 : Vec F S10000x2 .i32) (x1 x2 : Vec F S10000x128 .f32) :
    sout0_A_0 c i a2 h2 a3 h3 a4 h4 a5 h5 a6 h6 hc0 hc1 x0 x1 x2 = stepOver zeroFill x0 x1 x2 := by
  funext y
  unfold sout0_A_0 kernelRun0_A
  dsimp only
  sl_unfold_words
  have hcov : ∀ y : S8x128.Idx, ∃ p ∈ [(⟨Rect.unit (s := S8x128) ![0, 0] S8x128.size inb_S8x128_S8x128_0_0, zeroFill⟩ : View.Piece (Elt F) S8x128 .f32)], y ∈ p.1.set :=
    fun y => ⟨_, List.mem_singleton_self _, View.mem_set_unit_zero hz inb_S8x128_S8x128_0_0 y⟩
  have hload : a6.view.readCov [(⟨Rect.unit (s := S8x128) ![0, 0] S8x128.size inb_S8x128_S8x128_0_0, zeroFill⟩ : View.Piece (Elt F) S8x128 .f32)] corner.toLoadRect = View.ld zeroFill corner := by
    rw [View.readCov_eq_canon_ld a6.view _ corner hcov, View.canon_unit_zero hz]
  rw [hload]
  refine (read_corner_store (F := F) VS0_0 VS0_0.junk _
    [(⟨Rect.unit (s := S8x128) ![0, 0] S8x128.size inb_S8x128_S8x128_0_0, zeroFill⟩ : View.Piece (Elt F) S8x128 .f32)] y).trans ?_
  rw [read_fill]
  unfold stepOver
  simp only [View.readAt_eq_ld, h2.read_unread, h3.read_unread, h4.read_unread,
    View.ld_unit_zero (S := S10000x128) hz, View.ld_unit_zero (S := S10000x2) hz]

end Cert.KernelIdeal.Acc

end
-- ==== Proof.Loss.lean ====
/-
  The mathematics both programs compute, stated once over the four argument arrays, with no program in sight.

  Row i of the batch has a squared distance d i = ∑ₖ (a i k − b i k)² over its 64 coordinates. Its loss is d i when the
  two labels of the row agree and the hinge max (1 − d i) 0 when they differ. The result is the sum of the row losses
  divided by the constant 10⁶ (kept as the bit pattern both programs print).

  The kernel adds the same row losses in another grouping: row i = 2·((25·c + j)·10000 + r) + h is seen by core c at
  step j as sub-row r of a block of row PAIRS, h saying which half of the pair. The map (c, h, j, r) ↦ i is a bijection
  onto the 10⁶ rows, so over any commutative monoid the four-fold sum is the plain sum (`sum_regroup`); on the extended
  reals this uses commutativity and associativity of + only, hence no finiteness of the inputs.
-/
import Idealize.ShloMosaic.PureOps.Ideal.Laws
import Idealize.ShloMosaic.Lib.ValueIdx

noncomputable section

namespace Cert.Loss

open Idealize.ShloMosaic Idealize.ShloMosaic.ValueIdx

/-- The loss of one row from its label-agreement bit and its squared distance `d`: `d` itself on agreement, the hinge
    `max (1 − d) 0` otherwise (the constant 1.0 kept as its bit pattern). -/
def pairLoss (same : BitVec 1) (d : EReal) : EReal :=
  Scalar.select same d (max (Ideal.ofBits .f32 0x3F800000#32 - d) 0)

/-- The squared distance of row `i`: the sum over the 64 coordinates of the squared difference. -/
def sqDist (a b : (⟨2, ![1000000, 64]⟩ : Shape).Idx → EReal) (i : Fin 1000000) : EReal :=
  ∑ k : Fin 64, (a (ix2 i k) - b (ix2 i k)) * (a (ix2 i k) - b (ix2 i k))

/-- Row `i`'s loss: labels compared for equality, the squared distance fed to `pairLoss`. -/
def rowLoss (s o : (⟨1, ![1000000]⟩ : Shape).Idx → BitVec 32) (a b : (⟨2, ![1000000, 64]⟩ : Shape).Idx → EReal)
    (i : Fin 1000000) : EReal :=
  pairLoss (IntOp.cmpi .eq (s (ix1 i)) (o (ix1 i))) (sqDist a b i)

/-- The mean loss: the sum of the row losses over the constant 10⁶. -/
def meanLoss (s o : (⟨1, ![1000000]⟩ : Shape).Idx → BitVec 32) (a b : (⟨2, ![1000000, 64]⟩ : Shape).Idx → EReal) : EReal :=
  Ideal.div (∑ i : Fin 1000000, rowLoss s o a b i) (Ideal.ofBits .f32 0x49742400#32)

/-! ## The kernel's grouping of the rows -/

/-- The row that core `c` meets at step `j` as half `h` of pair `r` of its block. -/
def rowOf (c : Fin 2) (j : Fin 25) (r : Fin 10000) (h : Fin 2) : Fin 1000000 :=
  ⟨2 * ((25 * c.val + j.val) * 10000 + r.val) + h.val, by omega⟩

/-- (core, half, step, pair) ↦ row is a bijection: the inverse reads the four digits off the row number. -/
def rowEquiv : Fin 2 × Fin 2 × Fin 25 × Fin 10000 ≃ Fin 1000000 where
  toFun p := rowOf p.1 p.2.2.1 p.2.2.2 p.2.1
  invFun i := (⟨i.val / 500000, by omega⟩, ⟨i.val % 2, by omega⟩, ⟨i.val / 20000 % 25, by omega⟩, ⟨i.val / 2 % 10000, by omega⟩)
  left_inv := by
    rintro ⟨c, h, j, r⟩
    refine Prod.ext (Fin.ext ?_) (Prod.ext (Fin.ext ?_) (Prod.ext (Fin.ext ?_) (Fin.ext ?_))) <;>
      simp only [rowOf] <;> omega
  right_inv := by
    intro i
    apply Fin.ext
    simp only [rowOf]
    omega

/-- Summing over cores, halves, steps and pairs is summing over all rows, in any commutative monoid. -/
theorem sum_regroup {M : Type*} [AddCommMonoid M] (g : Fin 1000000 → M) :
    ∑ c : Fin 2, ∑ h : Fin 2, ∑ j : Fin 25, ∑ r : Fin 10000, g (rowOf c j r h) = ∑ i : Fin 1000000, g i := by
  rw [← Equiv.sum_comp rowEquiv g]
  simp only [Fintype.sum_prod_type]
  rfl

/-! ## One block's contribution -/

/-- The lane of a row pair that holds coordinate `k` of half `h`: the two rows of a pair sit side by side, 64 lanes each. -/
def colOf (h : Fin 2) (k : Fin 64) : Fin 128 := ⟨64 * h.val + k.val, by omega⟩

/-- What one block of 10000 row pairs adds to half `h` of the accumulator: over the pairs, the loss of the half's row, its
    squared distance summed over the half's 64 lanes, its label agreement the mask word being non-zero. -/
def blockLoss (msk : (⟨2, ![10000, 2]⟩ : Shape).Idx → BitVec 32) (x y : (⟨2, ![10000, 128]⟩ : Shape).Idx → EReal)
    (h : Fin 2) : EReal :=
  ∑ r : Fin 10000, pairLoss (IntOp.cmpi .ne (msk (ix2 r h)) 0#32)
    (∑ k : Fin 64, (x (ix2 r (colOf h k)) - y (ix2 r (colOf h k))) * (x (ix2 r (colOf h k)) - y (ix2 r (colOf h k))))

/-- A one-bit word widened to 32 bits is non-zero exactly when the bit is set: comparing it with zero gives the bit back. -/
theorem cmpi_ne_setWidth (b : BitVec 1) : IntOp.cmpi .ne (b.setWidth 32) 0#32 = b := by
  rcases (by decide : ∀ b : BitVec 1, b = 0#1 ∨ b = 1#1) b with rfl | rfl <;> decide

/-! ## The accumulator and the result tile -/

/-- The accumulator's contents: entries (0, 0) and (0, 1) hold the two running sums, every other entry is zero. -/
def spread (v : Fin 2 → EReal) : (⟨2, ![8, 128]⟩ : Shape).Idx → EReal := fun y =>
  if hy : (y 0).val = 0 ∧ (y 1).val < 2 then v ⟨(y 1).val, hy.2⟩ else 0

/-- The result tile: core `c`'s accumulator in rows 8c … 8c + 7. -/
def tile (g : Fin 2 → Fin 2 → EReal) : (⟨2, ![16, 128]⟩ : Shape).Idx → EReal := fun y =>
  if hy : (y 0).val % 8 = 0 ∧ (y 1).val < 2 then g ⟨(y 0).val / 8, by have := idx2_lt0 y; omega⟩ ⟨(y 1).val, hy.2⟩ else 0

/-- Rows 8c … 8c + 7 of the tile are core `c`'s accumulator. -/
theorem tile_block (g : Fin 2 → Fin 2 → EReal) (c : Fin 2) (y : (⟨2, ![8, 128]⟩ : Shape).Idx)
    (z : (⟨2, ![16, 128]⟩ : Shape).Idx) (h0 : (z 0).val = 8 * c.val + (y 0).val) (h1 : (z 1).val = (y 1).val) :
    tile g z = spread (g c) y := by
  have hy0 := idx2_lt0 y
  have hz0 := idx2_lt0 z
  unfold tile spread
  by_cases hy : (y 0).val = 0 ∧ (y 1).val < 2
  · have hz : (z 0).val % 8 = 0 ∧ (z 1).val < 2 := ⟨by omega, by omega⟩
    rw [dif_pos hy, dif_pos hz]
    have e0 : (⟨(z 0).val / 8, by have := idx2_lt0 z; omega⟩ : Fin 2) = c := Fin.ext (by show (z 0).val / 8 = c.val; omega)
    have e1 : (⟨(z 1).val, hz.2⟩ : Fin 2) = ⟨(y 1).val, hy.2⟩ := Fin.ext h1
    rw [e0, e1]
  · have hz : ¬((z 0).val % 8 = 0 ∧ (z 1).val < 2) := fun hz => hy ⟨by have := hz.1; omega, by have := hz.2; omega⟩
    rw [dif_neg hy, dif_neg hz]

/-- Where the live entries of the tile sit. -/
def liveEmb : Fin 2 × Fin 2 ↪ (⟨2, ![16, 128]⟩ : Shape).Idx where
  toFun p := ix2 ⟨8 * p.1.val, by omega⟩ ⟨p.2.val, by omega⟩
  inj' := by
    rintro ⟨c, h⟩ ⟨c', h'⟩ e
    have e0 := congrArg (fun y => (y 0).val) e
    have e1 := congrArg (fun y => (y 1).val) e
    exact Prod.ext (Fin.ext (by simpa using e0)) (Fin.ext (by simpa using e1))

/-- Summing the whole tile adds up the four live entries: every other entry is zero. -/
theorem sum_tile (g : Fin 2 → Fin 2 → EReal) : ∑ y, tile g y = ∑ c : Fin 2, ∑ h : Fin 2, g c h := by
  have hzero : ∀ y ∈ (Finset.univ : Finset (⟨2, ![16, 128]⟩ : Shape).Idx), y ∉ Finset.univ.map liveEmb → tile g y = 0 := by
    intro y _ hy
    unfold tile
    refine dif_neg fun hlive => hy ?_
    refine Finset.mem_map.mpr ⟨(⟨(y 0).val / 8, by have := idx2_lt0 y; omega⟩, ⟨(y 1).val, hlive.2⟩), Finset.mem_univ _, ?_⟩
    funext a
    match a with
    | ⟨0, _⟩ => exact Fin.ext (by show 8 * ((y 0).val / 8) = (y 0).val; have := hlive.1; omega)
    | ⟨1, _⟩ => exact Fin.ext rfl
  rw [← Finset.sum_subset (Finset.subset_univ _) hzero, Finset.sum_map, Fintype.sum_prod_type]
  refine Finset.sum_congr rfl fun c _ => Finset.sum_congr rfl fun h _ => ?_
  have hlive : ((liveEmb (c, h)) 0).val % 8 = 0 ∧ ((liveEmb (c, h)) 1).val < 2 :=
    ⟨by show 8 * c.val % 8 = 0; omega, by show h.val < 2; omega⟩
  unfold tile
  rw [dif_pos hlive]
  have e0 : (⟨((liveEmb (c, h)) 0).val / 8, by have := idx2_lt0 (liveEmb (c, h)); omega⟩ : Fin 2) = c :=
    Fin.ext (by show 8 * c.val / 8 = c.val; omega)
  have e1 : (⟨((liveEmb (c, h)) 1).val, hlive.2⟩ : Fin 2) = h := Fin.ext rfl
  rw [e0, e1]

end Cert.Loss

end
-- ==== Proof.Payload.lean ====
/-
  The body's arithmetic at an index. The one store of a grid step writes, at (0, h) of the accumulator, what it loaded
  there plus the block's contribution to half h: the squared differences summed over the half's 64 lanes give each row
  pair's distance for that half, the hinge or the distance is selected by the mask word, and the selected values are
  summed down the 10000 pairs. Both lane sums and the pair sum start from the constant 0.0, which the reduction reads
  as plain sums over the reduced axis.
-/
import proofs.«400209_j55611236548990_4_alg».proof.Proof.Gen.KernelIdeal.Skeleton
import proofs.«400209_j55611236548990_4_alg».proof.Proof.Loss
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx Cert.Loss

/-- A vector cast to a one-column matrix reads, at (r, u), the vector at r. -/
theorem column_cast (x : S10000.Idx → EReal) (h : S10000.ShapeCasts S10000x1) (r : Fin 10000) (u : Fin 1) :
    shapeCast S10000x1 x h (ix2 r u) = x (ix1 r) :=
  shapeCast_apply x h _ _ (by
    have hu : u.val = 0 := by omega
    rw [Shape.rowMajor_val_two, Shape.rowMajor_val_one]
    show r.val = r.val * 1 + u.val
    omega)

/-- The lane sum of one half of the squared differences: lanes o … o + 63 of row pair r. -/
theorem half_sum (sq : S10000x128.Idx → EReal) (o : Nat) (hs : S10000x128.Slices ![0, o] S10000x64)
    (hred : S10000x64.Reduces [1] S10000) (hφ : FKind.Formats .f32) (hacc : (0x00000000#32 : BitVec 32) = FKind.add.neutral .f32 hφ)
    (r : Fin 10000) (lane : Fin 64 → Fin 128) (hl : ∀ k, (lane k).val = o + k.val) :
    multiReduction (F := Ideal) .add [1] S10000 (extractStridedSlice S10000x64 ![0, o] sq hs) 0x00000000#32 hred hφ hacc (ix1 r)
      = ∑ k : Fin 64, sq (ix2 r (lane k)) := by
  rw [Ideal.multiReduction_add_single]
  show ∑ k : Fin 64, _ = _
  refine Finset.sum_congr rfl fun k _ => ?_
  have e : hred.lift (ix1 r) k = ix2 r k := funext fun a => Fin.ext (by match a with | ⟨0, _⟩ => rfl | ⟨1, _⟩ => rfl)
  rw [e]
  exact slice2_axis1_apply o sq hs r k (lane k) (hl k)

/-- The two halves' lane sums laid side by side: at (r, h) the squared distance of half h of row pair r. -/
theorem pairDist_apply (x y : FVec Ideal S10000x128 .f32) (hs0 : S10000x128.Slices ![0, 0] S10000x64)
    (hs1 : S10000x128.Slices ![0, 64] S10000x64) (hred : S10000x64.Reduces [1] S10000) (hφ : FKind.Formats .f32)
    (hacc : (0x00000000#32 : BitVec 32) = FKind.add.neutral .f32 hφ) (hcast : S10000.ShapeCasts S10000x1)
    (hcat : Shape.Concatenates [S10000x1, S10000x1] S10000x2 1) (r : Fin 10000) (h : Fin 2) :
    concatenate S10000x2 1
        [⟨S10000x1, shapeCast S10000x1 (multiReduction (F := Ideal) .add [1] S10000 (extractStridedSlice S10000x64 ![0, 0] (mulf (F := Ideal) (subf x y) (subf x y)) hs0) 0x00000000#32 hred hφ hacc) hcast⟩,
         ⟨S10000x1, shapeCast S10000x1 (multiReduction (F := Ideal) .add [1] S10000 (extractStridedSlice S10000x64 ![0, 64] (mulf (F := Ideal) (subf x y) (subf x y)) hs1) 0x00000000#32 hred hφ hacc) hcast⟩]
        hcat (ix2 r h)
      = ∑ k : Fin 64, (x (ix2 r (colOf h k)) - y (ix2 r (colOf h k))) * (x (ix2 r (colOf h k)) - y (ix2 r (colOf h k))) := by
  match h with
  | ⟨0, _⟩ =>
    refine (concatenate_pair_apply_left (t := S10000x2) (s₁ := S10000x1) (s₂ := S10000x1) (1 : Fin 2) _ _ hcat
      (ix2 r (0 : Fin 2)) rfl (ix2 r (0 : Fin 1)) (fun b => by match b with | ⟨0, _⟩ => rfl | ⟨1, _⟩ => rfl)).trans ?_
    rw [column_cast, half_sum (mulf (F := Ideal) (subf x y) (subf x y)) 0 hs0 hred hφ hacc r (colOf (0 : Fin 2))
      (fun k => by show 64 * 0 + k.val = 0 + k.val; omega)]
    rfl
  | ⟨1, _⟩ =>
    refine (concatenate_pair_apply_right (t := S10000x2) (s₁ := S10000x1) (s₂ := S10000x1) (1 : Fin 2) _ _ hcat
      (ix2 r (1 : Fin 2)) rfl rfl (ix2 r (0 : Fin 1))
      (fun b hb => by match b with | ⟨0, _⟩ => rfl | ⟨1, _⟩ => exact absurd rfl hb) rfl).trans ?_
    rw [column_cast, half_sum (mulf (F := Ideal) (subf x y) (subf x y)) 64 hs1 hred hφ hacc r (colOf (1 : Fin 2))
      (fun k => by show 64 * 1 + k.val = 64 + k.val; omega)]
    rfl

/-- The selected values summed down the row pairs: at half h, the sum over the pairs of the row's loss. -/
theorem selected_sum (msk : IVec S10000x2 32) (D : FVec Ideal S10000x2 .f32) (hred : S10000x2.Reduces [0] S2)
    (hφ : FKind.Formats .f32) (hacc : (0x00000000#32 : BitVec 32) = FKind.add.neutral .f32 hφ) (hc : S2.ShapeCasts S1x2) (h : Fin 2) :
    shapeCast S1x2 (multiReduction (F := Ideal) .add [0] S2
        (select (cmpi .ne msk (broadcast S10000x2 (0#32 : BitVec 32))) D
          (maximumf (subf (broadcast S10000x2 (Scalar.ofBits (F := Ideal) .f32 0x3F800000#32)) D)
            (broadcast S10000x2 (Scalar.ofBits (F := Ideal) .f32 0x00000000#32))))
        0x00000000#32 hred hφ hacc) hc (ix2 (0 : Fin 1) h)
      = ∑ r : Fin 10000, pairLoss (IntOp.cmpi .ne (msk (ix2 r h)) 0#32) (D (ix2 r h)) := by
  rw [shapeCast_a_1a_apply, Ideal.multiReduction_add_single]
  show ∑ r : Fin 10000, _ = _
  refine Finset.sum_congr rfl fun r _ => ?_
  have e : hred.lift (ix1 h) r = ix2 r h := funext fun a => Fin.ext (by match a with | ⟨0, _⟩ => rfl | ⟨1, _⟩ => rfl)
  rw [e]
  unfold pairLoss
  simp only [select_apply, maximumf_apply, subf_apply, broadcast_apply, Ideal.ofBits_def, Ideal.ofBits_zero_f32]
  rfl

/-- THE STORE'S PAYLOAD at (0, h): what was loaded there plus the block's contribution to half h. -/
theorem pay_apply (v3 v5 : Vec Ideal S10000x128 .f32) (v16 : Vec Ideal S10000x2 .i32) (v27 : Vec Ideal S1x2 .f32) (h : Fin 2) :
    k0_pay2 (F := Ideal) v3 v5 v16 v27 (ix2 (0 : Fin 1) h) = v27 (ix2 (0 : Fin 1) h) + blockLoss v16 v3 v5 h := by
  have e3 : shapeCast S10000x128 (v3 : S10000x128.Idx → Ideal .f32) shapeCasts_S10000x128_S10000x128 = v3 := shapeCast_self _ _
  have e5 : shapeCast S10000x128 (v5 : S10000x128.Idx → Ideal .f32) shapeCasts_S10000x128_S10000x128 = v5 := shapeCast_self _ _
  unfold k0_pay2
  dsimp only
  rw [e3, e5]
  simp only [shapeCast_self]
  refine (addf_apply _ _ _).trans ?_
  refine congrArg (v27 (ix2 (0 : Fin 1) h) + ·) ?_
  refine (selected_sum v16 _ _ _ _ _ h).trans ?_
  unfold blockLoss
  refine Finset.sum_congr rfl fun r _ => ?_
  refine congrArg (pairLoss _) ?_
  exact pairDist_apply v3 v5 _ _ _ _ _ _ _ r h

end Cert.KernelIdeal.Pay

end
-- ==== Proof.Accum.lean ====
/-
  The accumulator over the grid, at the ideal instance. Its contents are always of the shape `spread v`: two running sums
  in entries (0, 0) and (0, 1), zero elsewhere. One step adds to each running sum the block's contribution to that half;
  a core's first step starts again from zero. By induction over the grid points the accumulator after point n holds the
  contributions of the points since the core's first one, and the output block written at a core's last point holds the
  same.
-/
import proofs.«400209_j55611236548990_4_alg».proof.Proof.Pieces
import proofs.«400209_j55611236548990_4_alg».proof.Proof.Payload
import proofs.«400209_j55611236548990_4_alg».proof.Proof.Loss

noncomputable section

namespace Cert.KernelIdeal.Acc

open Cert.KernelIdeal Cert.KernelIdeal.Gen Idealize.ShloMosaic Idealize.ShloMosaic.TcCoe Idealize.SL.Sem
open Idealize.ShloMosaic.ValueIdx Cert.Loss

/-- The corner's entry k is the accumulator's entry (0, k). -/
theorem corner_idx (k : Fin 2) : corner.idx (ix2 (0 : Fin 1) k) = ix2 (0 : Fin 8) ⟨k.val, by omega⟩ :=
  funext fun a => Fin.ext (by
    match a with
    | ⟨0, _⟩ => rfl
    | ⟨1, _⟩ => show 0 + 1 * k.val = k.val; omega)

/-- ONE STEP on running sums v adds the block's contribution to each. -/
theorem step_spread (v : Fin 2 → EReal) (x0 : Vec Ideal S10000x2 .i32) (x1 x2 : Vec Ideal S10000x128 .f32) :
    stepOver (F := Ideal) (spread v) x0 x1 x2 = spread (fun h => v h + blockLoss x0 x1 x2 h) := by
  funext y
  unfold stepOver
  by_cases hy : (y 0).val = 0 ∧ (y 1).val < 2
  · rw [dif_pos hy, Pay.pay_apply]
    show spread v (corner.idx (ix2 (0 : Fin 1) ⟨(y 1).val, hy.2⟩)) + _ = _
    rw [corner_idx]
    unfold spread
    rw [dif_pos hy, dif_pos (show ((ix2 (0 : Fin 8) (⟨(y 1).val, by omega⟩ : Fin 128) : S8x128.Idx) 0).val = 0 ∧ ((ix2 (0 : Fin 8) (⟨(y 1).val, by omega⟩ : Fin 128) : S8x128.Idx) 1).val < 2 from ⟨rfl, hy.2⟩)]
  · rw [dif_neg hy]
    unfold spread
    rw [dif_neg hy, dif_neg hy]

/-- The fill is the accumulator at zero running sums. -/
theorem zeroFill_eq : zeroFill (F := Ideal) = spread (fun _ => 0) := by
  funext y
  show k0_pay1 (F := Ideal) y = _
  unfold k0_pay1
  rw [shapeCast_self]
  show Ideal.ofBits .f32 0x00000000#32 = _
  rw [Ideal.ofBits_zero_f32]
  unfold spread
  split <;> rfl

variable (m : (ℓ : Loc nD τ sig) → Buf (Elt Ideal) ℓ)

/-- What grid point n adds to half h: the contribution of the three blocks the windows stage there (zero past the grid). -/
def contrib (c : Dev nD) (n : ℕ) (h : Fin 2) : EReal :=
  if hn : n < cfg0.N then blockLoss (iblk m c 0 ⟨n, hn⟩) (iblk m c 1 ⟨n, hn⟩) (iblk m c 2 ⟨n, hn⟩) h else 0

theorem contrib_of_lt (c : Dev nD) (n : ℕ) (hn : n < cfg0.N) :
    (fun h => blockLoss (iblk m c 0 ⟨n, hn⟩) (iblk m c 1 ⟨n, hn⟩) (iblk m c 2 ⟨n, hn⟩) h) = contrib m c n :=
  funext fun h => by unfold contrib; rw [dif_pos hn]

/-- The running sums after point n: started afresh at a core's first point (n a multiple of 25), else carried on. -/
def running (c : Dev nD) : ℕ → Fin 2 → EReal
  | 0 => contrib m c 0
  | n + 1 => if (n + 1) % 25 = 0 then contrib m c (n + 1) else fun h => running c n h + contrib m c (n + 1) h

theorem running_reset (c : Dev nD) (n : ℕ) (h0 : n % 25 = 0) : running m c n = contrib m c n := by
  cases n with
  | zero => rfl
  | succ n => show (if (n + 1) % 25 = 0 then _ else _) = _; rw [if_pos h0]

theorem running_step (c : Dev nD) (n : ℕ) (h0 : ¬(n + 1) % 25 = 0) :
    running m c (n + 1) = fun h => running m c n h + contrib m c (n + 1) h := by
  show (if (n + 1) % 25 = 0 then _ else _) = _; rw [if_neg h0]

/-- THE INVARIANT: after point n the accumulator holds the running sums. -/
theorem scratch_eq (c : Dev nD) : ∀ (n : ℕ) (hn : n < cfg0.N), (outsAt0 m c n hn).2 = spread (running m c n)
  | 0, hn => by
    have h0 : (⟨0, hn⟩ : Fin cfg0.N).val % 25 = 0 := rfl
    have h1 : ¬(⟨0, hn⟩ : Fin cfg0.N).val % 25 = 24 := by show ¬(0 : ℕ) % 25 = 24; decide
    rw [outsAt0_A m c ⟨0, hn⟩ h0 h1]
    dsimp only
    refine (scratch_A (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) _ _ (iblk m c 0 ⟨0, hn⟩) (iblk m c 1 ⟨0, hn⟩) (iblk m c 2 ⟨0, hn⟩)).trans ?_
    rw [zeroFill_eq, step_spread]
    simp only [zero_add]
    rw [contrib_of_lt m c 0 hn, running_reset m c 0 rfl]
  | n + 1, hn => by
    have hN : cfg0.N = 50 := N_0
    by_cases h0 : (n + 1) % 25 = 0
    · have h1 : ¬(n + 1) % 25 = 24 := by omega
      rw [outsAt0_A m c ⟨n + 1, hn⟩ h0 h1]
      dsimp only
      refine (scratch_A (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) _ _ (iblk m c 0 ⟨n + 1, hn⟩) (iblk m c 1 ⟨n + 1, hn⟩) (iblk m c 2 ⟨n + 1, hn⟩)).trans ?_
      rw [zeroFill_eq, step_spread]
      simp only [zero_add]
      rw [contrib_of_lt m c (n + 1) hn, running_reset m c (n + 1) h0]
    · have ih := scratch_eq c n (Nat.lt_of_succ_lt hn)
      by_cases h1 : (n + 1) % 25 = 24
      · rw [outsAt0_C m c ⟨n + 1, hn⟩ h0 h1]
        dsimp only
        refine (scratch_C (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) _ _ (iblk m c 0 ⟨n + 1, hn⟩) (iblk m c 1 ⟨n + 1, hn⟩) (iblk m c 2 ⟨n + 1, hn⟩) _).trans ?_
        show stepOver (outsAt0 m c n _).2 _ _ _ = _
        rw [ih, step_spread, running_step m c n h0, ← contrib_of_lt m c (n + 1) hn]
      · rw [outsAt0_B m c ⟨n + 1, hn⟩ h0 h1]
        dsimp only
        refine (scratch_B (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) _ _ (iblk m c 0 ⟨n + 1, hn⟩) (iblk m c 1 ⟨n + 1, hn⟩) (iblk m c 2 ⟨n + 1, hn⟩) _).trans ?_
        show stepOver (outsAt0 m c n _).2 _ _ _ = _
        rw [ih, step_spread, running_step m c n h0, ← contrib_of_lt m c (n + 1) hn]

/-- At a core's last point the output block holds the running sums too: it is a copy of the accumulator. -/
theorem out_eq (c : Dev nD) (n : ℕ) (hn : n < cfg0.N) (h1 : n % 25 = 24) : (outsAt0 m c n hn).1 = spread (running m c n) := by
  cases n with
  | zero => exact absurd h1 (by decide)
  | succ n =>
    have h0 : ¬(n + 1) % 25 = 0 := by omega
    have ih := scratch_eq m c n (Nat.lt_of_succ_lt hn)
    rw [outsAt0_C m c ⟨n + 1, hn⟩ h0 h1]
    dsimp only
    refine (out_C (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) _ _ (iblk m c 0 ⟨n + 1, hn⟩) (iblk m c 1 ⟨n + 1, hn⟩) (iblk m c 2 ⟨n + 1, hn⟩) _).trans ?_
    show stepOver (outsAt0 m c n _).2 _ _ _ = _
    rw [ih, step_spread, running_step m c n h0, ← contrib_of_lt m c (n + 1) hn]

/-- After j + 1 points of core k's run the running sums are the contributions of those points. -/
theorem running_sum (c : Dev nD) (k : ℕ) : ∀ j : ℕ, j < 25 →
    running m c (25 * k + j) = fun h => ∑ j' ∈ Finset.range (j + 1), contrib m c (25 * k + j') h
  | 0, _ => by
    rw [running_reset m c (25 * k + 0) (by omega)]
    funext h
    rw [Finset.sum_range_one]
  | j + 1, hj => by
    have ih := running_sum c k j (by omega)
    show running m c ((25 * k + j) + 1) = _
    rw [running_step m c (25 * k + j) (by omega), ih]
    funext h
    rw [Finset.sum_range_succ _ (j + 1)]
    rfl

end Cert.KernelIdeal.Acc

end
-- ==== Proof.Blocks.lean ====
/-
  The input blocks in terms of the arguments. At grid point t each of the three windows stages block t of its array (rows
  10000·t … 10000·t + 9999, every column). The arrays are what the host built before the region: the two feature arrays
  reshaped so that row pair R holds rows 2R and 2R + 1 side by side, and the label-agreement bits widened to words and
  reshaped so that (R, h) is row 2R + h.
-/
import proofs.«400209_j55611236548990_4_alg».proof.Proof.Gen.KernelIdeal.Frame
import proofs.«400209_j55611236548990_4_alg».proof.Proof.Loss
import Idealize.ShloMosaic.Lib.Pipeline.Value
import Idealize.ShloMosaic.Lib.StableHlo.Run
import Idealize.ShloMosaic.Lib.ValueIdx

noncomputable section

namespace Cert.KernelIdeal.Blk

open Cert.KernelIdeal Cert.KernelIdeal.Gen Idealize.ShloMosaic Idealize.ShloMosaic.TcCoe Idealize.SL.Sem
open Idealize.ShloMosaic.ValueIdx Cert.Loss

/-- Every input window's block index at point t is (t, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The reshaped feature array at (R, 64h + k) is the original at (2R + h, k): the same row-major position. -/
theorem reshape_pairs (x : S1000000x64.Idx → EReal) (hc : S1000000x64.ShapeCasts S500000x128) (R : Fin 500000) (h : Fin 2)
    (k : Fin 64) (i : Fin 1000000) (hi : i.val = 2 * R.val + h.val) :
    shapeCast S500000x128 x hc (ix2 R (colOf h k)) = x (ix2 i k) :=
  shapeCast_apply x hc _ _ (by
    rw [Shape.rowMajor_val_two, Shape.rowMajor_val_two]
    show i.val * 64 + k.val = R.val * 128 + (64 * h.val + k.val)
    omega)

/-- The reshaped word array at (R, h) is the original at 2R + h. -/
theorem reshape_words (x : S1000000.Idx → BitVec 32) (hc : S1000000.ShapeCasts S500000x2) (R : Fin 500000) (h : Fin 2)
    (i : Fin 1000000) (hi : i.val = 2 * R.val + h.val) :
    shapeCast S500000x2 x hc (ix2 R h) = x (ix1 i) :=
  shapeCast_apply x hc _ _ (by
    rw [Shape.rowMajor_val_one, Shape.rowMajor_val_two]
    show i.val = R.val * 2 + h.val
    omega)

variable (m : (ℓ : Loc nD τ sig) → Buf (Elt Ideal) ℓ)

/-- The first feature array as the region finds it. -/
theorem V_v0 (c : Dev nD) : (V m c main_v0 : S500000x128.Idx → EReal)
    = shapeCast S500000x128 (m ((c : Thread nD τ).loc main_arg1)) shapeCasts_S1000000x64_S500000x128 := by
  show StableHlo.after hostOps0 (fun b => m (c, b)) (Proc.devRef .tc main_v0) = _
  after_results
  rfl

/-- The second feature array as the region finds it. -/
theorem V_v1 (c : Dev nD) : (V m c main_v1 : S500000x128.Idx → EReal)
    = shapeCast S500000x128 (m ((c : Thread nD τ).loc main_arg3)) shapeCasts_S1000000x64_S500000x128 := by
  show StableHlo.after hostOps0 (fun b => m (c, b)) (Proc.devRef .tc main_v1) = _
  after_results
  rfl

/-- The mask array as the region finds it. -/
theorem V_v4 (c : Dev nD) : (V m c main_v4 : S500000x2.Idx → BitVec 32)
    = shapeCast S500000x2 (extui 32 (cmpi .eq (m ((c : Thread nD τ).loc main_arg0)) (m ((c : Thread nD τ).loc main_arg2))) natLt_1_32)
        shapeCasts_S1000000_S500000x2 := by
  show StableHlo.after hostOps0 (fun b => m (c, b)) (Proc.devRef .tc main_v4) = _
  after_results
  rfl

/-- The mask block at point t, entry (r, h): the mask array at row pair 10000·t + r. -/
theorem mask_block (c : Dev nD) (t : Fin cfg0.N) (r : Fin 10000) (h : Fin 2) (R : Fin 500000)
    (hR : R.val = t.val * 10000 + r.val) :
    (iblk m c 0 t : S10000x2.Idx → BitVec 32) (ix2 r h) = (V m c main_v4 : S500000x2.Idx → BitVec 32) (ix2 R h) := by
  unfold iblk
  rw [View.read_apply]
  refine congrArg (V m c main_v4) (funext fun a => Fin.ext ?_)
  match a with
  | ⟨0, _⟩ =>
    show win0_0.index t 0 * 10000 + 1 * r.val = R.val
    rw [(index_facts t).1]; omega
  | ⟨1, _⟩ =>
    show win0_0.index t 1 * 2 + 1 * h.val = h.val
    rw [(index_facts t).2.1]; omega

/-- The first feature block at point t, entry (r, l): the first feature array at row pair 10000·t + r. -/
theorem feat0_block (c : Dev nD) (t : Fin cfg0.N) (r : Fin 10000) (l : Fin 128) (R : Fin 500000)
    (hR : R.val = t.val * 10000 + r.val) :
    (iblk m c 1 t : S10000x128.Idx → EReal) (ix2 r l) = (V m c main_v0 : S500000x128.Idx → EReal) (ix2 R l) := by
  unfold iblk
  rw [View.read_apply]
  refine congrArg (V m c main_v0) (funext fun a => Fin.ext ?_)
  match a with
  | ⟨0, _⟩ =>
    show win0_1.index t 0 * 10000 + 1 * r.val = R.val
    rw [(index_facts t).2.2.1]; omega
  | ⟨1, _⟩ =>
    show win0_1.index t 1 * 128 + 1 * l.val = l.val
    rw [(index_facts t).2.2.2.1]; omega

/-- The second feature block likewise. -/
theorem feat1_block (c : Dev nD) (t : Fin cfg0.N) (r : Fin 10000) (l : Fin 128) (R : Fin 500000)
    (hR : R.val = t.val * 10000 + r.val) :
    (iblk m c 2 t : S10000x128.Idx → EReal) (ix2 r l) = (V m c main_v1 : S500000x128.Idx → EReal) (ix2 R l) := by
  unfold iblk
  rw [View.read_apply]
  refine congrArg (V m c main_v1) (funext fun a => Fin.ext ?_)
  match a with
  | ⟨0, _⟩ =>
    show win0_2.index t 0 * 10000 + 1 * r.val = R.val
    rw [(index_facts t).2.2.2.2.1]; omega
  | ⟨1, _⟩ =>
    show win0_2.index t 1 * 128 + 1 * l.val = l.val
    rw [(index_facts t).2.2.2.2.2]; omega

end Cert.KernelIdeal.Blk

end
-- ==== Proof.Rows.lean ====
/-
  A grid point's contribution in terms of the arguments. Point 25k + j (core k, step j) stages row pairs
  10000·(25k + j) … + 9999; half h of pair r there is row 2·((25k + j)·10000 + r) + h of the batch. Through the host's
  reshapes the block's lanes are that row's 64 coordinates and the mask word is that row's widened agreement bit, so the
  contribution is the sum of the row losses of those rows.
-/
import proofs.«400209_j55611236548990_4_alg».proof.Proof.Accum
import proofs.«400209_j55611236548990_4_alg».proof.Proof.Blocks

noncomputable section

namespace Cert.KernelIdeal.Rows

open Cert.KernelIdeal Cert.KernelIdeal.Gen Idealize.ShloMosaic Idealize.ShloMosaic.TcCoe Idealize.SL.Sem
open Idealize.ShloMosaic.ValueIdx Cert.Loss

variable (m : (ℓ : Loc nD τ sig) → Buf (Elt Ideal) ℓ)

/-- Point 25k + j adds to half h the losses of the rows it stages. -/
theorem contrib_rows (c : Dev nD) (k : Fin 2) (j : Fin 25) (h : Fin 2) :
    Acc.contrib m c (25 * k.val + j.val) h
      = ∑ r : Fin 10000, rowLoss (m ((c : Thread nD τ).loc main_arg0)) (m ((c : Thread nD τ).loc main_arg2))
          (m ((c : Thread nD τ).loc main_arg1)) (m ((c : Thread nD τ).loc main_arg3)) (rowOf k j r h) := by
  have hN : cfg0.N = 50 := N_0
  have hn : 25 * k.val + j.val < cfg0.N := by omega
  unfold Acc.contrib
  rw [dif_pos hn]
  unfold blockLoss
  refine Finset.sum_congr rfl fun r _ => ?_
  have hR : ((⟨(25 * k.val + j.val) * 10000 + r.val, by omega⟩ : Fin 500000)).val
      = (⟨25 * k.val + j.val, hn⟩ : Fin cfg0.N).val * 10000 + r.val := rfl
  have hi : (rowOf k j r h).val = 2 * ((⟨(25 * k.val + j.val) * 10000 + r.val, by omega⟩ : Fin 500000)).val + h.val := rfl
  unfold rowLoss sqDist
  refine congrArg₂ pairLoss ?_ ?_
  · rw [Blk.mask_block m c ⟨25 * k.val + j.val, hn⟩ r h ⟨(25 * k.val + j.val) * 10000 + r.val, by omega⟩ hR, Blk.V_v4,
      Blk.reshape_words _ _ ⟨(25 * k.val + j.val) * 10000 + r.val, by omega⟩ h (rowOf k j r h) hi]
    exact cmpi_ne_setWidth _
  · refine Finset.sum_congr rfl fun q _ => ?_
    rw [Blk.feat0_block m c ⟨25 * k.val + j.val, hn⟩ r (colOf h q) ⟨(25 * k.val + j.val) * 10000 + r.val, by omega⟩ hR,
      Blk.feat1_block m c ⟨25 * k.val + j.val, hn⟩ r (colOf h q) ⟨(25 * k.val + j.val) * 10000 + r.val, by omega⟩ hR,
      Blk.V_v0, Blk.V_v1,
      Blk.reshape_pairs _ _ ⟨(25 * k.val + j.val) * 10000 + r.val, by omega⟩ h q (rowOf k j r h) hi,
      Blk.reshape_pairs _ _ ⟨(25 * k.val + j.val) * 10000 + r.val, by omega⟩ h q (rowOf k j r h) hi]

end Cert.KernelIdeal.Rows

end
-- ==== Proof.Result.lean ====
/-
  The kernel's result. The output array is written twice, at each core's last grid point, with that core's accumulator:
  block k (rows 8k … 8k + 7) holds core k's two final running sums in entries (0, 0) and (0, 1) and zeros elsewhere. The
  host then sums the whole 16×128 array from 0.0 and divides by the constant 10⁶. The four live entries add up to the sum
  of the row losses over all 10⁶ rows, regrouped by core, half, step and row pair; so the result is the mean loss.
-/
import proofs.«400209_j55611236548990_4_alg».proof.Proof.Rows
import Idealize.ShloMosaic.Lib.Pipeline.Value
import Idealize.ShloMosaic.Lib.StableHlo.Run
import Idealize.ShloMosaic.Lib.IdealHost

noncomputable section

namespace Cert.KernelIdeal.Result

open Cert.KernelIdeal Cert.KernelIdeal.Gen Idealize.ShloMosaic Idealize.ShloMosaic.TcCoe Idealize.SL.Sem
open Idealize.ShloMosaic.Pipeline (Dat)
open Idealize.ShloMosaic.ValueIdx Cert.Loss

variable (m : (ℓ : Loc nD τ sig) → Buf (Elt Ideal) ℓ) (ρ : Dev nD → PrngReg)

/-- Core k's running sums after its last step. -/
def coreSum (c : Dev nD) (k h : Fin 2) : EReal := Acc.running m c (25 * k.val + 24) h

/-- The output window's block index at point t is (t / 25, 0), and its blocks are whole 8×128 blocks. -/
theorem out_index : ∀ t : Fin cfg0.N,
    win0_3.index t (0 : Fin 2) = t.val / 25 ∧ win0_3.index t (1 : Fin 2) = 0
    ∧ win0_3.xsize (grid0.coords t) (0 : Fin 2) = 8 ∧ win0_3.xsize (grid0.coords t) (1 : Fin 2) = 128 :=
  (by decide +kernel : ∀ t : Fin grid0.N, _)

/-- What a core's last point writes back is that core's block of the result tile. -/
theorem flushed_eq (c : Dev nD) (t : Fin cfg0.N) (hf : (cfg0.win 3).flush t = true) :
    (dats m 0 c).flushed 3 t = ((cfg0.win 3).blk t).view.read (Elt Ideal) (tile (coreSum m c)) := by
  have hN : cfg0.N = 50 := N_0
  have h24 : t.val % 25 = 24 := (flush0_3 t).mp hf
  have hk : t.val / 25 < 2 := by have := t.isLt; omega
  have hrun : coreSum m c ⟨t.val / 25, hk⟩ = Acc.running m c t.val := by
    funext h
    show Acc.running m c (25 * (t.val / 25) + 24) h = _
    rw [show 25 * (t.val / 25) + 24 = t.val by omega]
  show (cfg0.win 3).cut (grid0.coords t) ((dats m 0 c).after 3 t) = _
  rw [after0_3, Acc.out_eq m c t.val t.isLt h24, ← hrun]
  funext y
  rw [View.read_apply]
  exact (tile_block (coreSum m c) ⟨t.val / 25, hk⟩ _ _
    (by show win0_3.index t 0 * 8 + 1 * (y 0).val = 8 * (t.val / 25) + (y 0).val; rw [(out_index t).1]; omega)
    (by show win0_3.index t 1 * 128 + 1 * (y 1).val = (y 1).val; rw [(out_index t).2.1]; omega)).symm

/-- The two last points' blocks cover the output array. -/
theorem cover (c : Dev nD) (i : ((cfg0.win 3).arr.view.loc (c.tc : Thread nD τ)).2.ty.Idx) :
    ∃ t : Fin cfg0.N, (cfg0.win 3).flush t = true ∧ i ∈ ((cfg0.win 3).blk t).view.set := by
  have hN : cfg0.N = 50 := N_0
  have hi0 : (i 0 : Nat) < 16 := (i 0).isLt
  have hi1 : (i 1 : Nat) < 128 := (i 1).isLt
  have ht : 25 * ((i 0 : Nat) / 8) + 24 < cfg0.N := by rw [hN]; omega
  refine ⟨⟨25 * ((i 0 : Nat) / 8) + 24, ht⟩, (flush0_3 ⟨25 * ((i 0 : Nat) / 8) + 24, ht⟩).mpr (by show (25 * ((i 0 : Nat) / 8) + 24) % 25 = 24; omega), ?_⟩
  show i ∈ ((View.whole main_v5).slice (win0_3.rect ⟨25 * ((i 0 : Nat) / 8) + 24, ht⟩)).set
  rw [View.set_slice_whole, Rect.mem_set_unit]
  intro a
  match a with
  | ⟨0, _⟩ =>
    show win0_3.index ⟨25 * ((i 0 : Nat) / 8) + 24, ht⟩ 0 * 8 ≤ (i 0 : Nat)
      ∧ (i 0 : Nat) < win0_3.index ⟨25 * ((i 0 : Nat) / 8) + 24, ht⟩ 0 * 8 + win0_3.xsize (grid0.coords ⟨25 * ((i 0 : Nat) / 8) + 24, ht⟩) 0
    rw [(out_index ⟨25 * ((i 0 : Nat) / 8) + 24, ht⟩).1, (out_index ⟨25 * ((i 0 : Nat) / 8) + 24, ht⟩).2.2.1]
    show (25 * ((i 0 : Nat) / 8) + 24) / 25 * 8 ≤ (i 0 : Nat) ∧ (i 0 : Nat) < (25 * ((i 0 : Nat) / 8) + 24) / 25 * 8 + 8
    omega
  | ⟨1, _⟩ =>
    show win0_3.index ⟨25 * ((i 0 : Nat) / 8) + 24, ht⟩ 1 * 128 ≤ (i 1 : Nat)
      ∧ (i 1 : Nat) < win0_3.index ⟨25 * ((i 0 : Nat) / 8) + 24, ht⟩ 1 * 128 + win0_3.xsize (grid0.coords ⟨25 * ((i 0 : Nat) / 8) + 24, ht⟩) 1
    rw [(out_index ⟨25 * ((i 0 : Nat) / 8) + 24, ht⟩).2.1, (out_index ⟨25 * ((i 0 : Nat) / 8) + 24, ht⟩).2.2.2]
    omega

/-- So the output array ends holding the result tile. -/
theorem final_out (c : Dev nD) : (dats m 0 c).arrAt 3 cfg0.N = tile (coreSum m c) :=
  (dats m 0 c).arrAt_eq_of_cover 3 (tile (coreSum m c)) (flushed_eq m c) (cover c)

/-- The tile's total is the sum of the row losses over all rows. -/
theorem total_eq (c : Dev nD) :
    ∑ y, tile (coreSum m c) y
      = ∑ i : Fin 1000000, rowLoss (m ((c : Thread nD τ).loc main_arg0)) (m ((c : Thread nD τ).loc main_arg2))
          (m ((c : Thread nD τ).loc main_arg1)) (m ((c : Thread nD τ).loc main_arg3)) i := by
  rw [sum_tile, ← sum_regroup]
  refine Finset.sum_congr rfl fun k _ => Finset.sum_congr rfl fun h _ => ?_
  unfold coreSum
  rw [Acc.running_sum m c k.val 24 (by omega)]
  show ∑ j' ∈ Finset.range 25, Acc.contrib m c (25 * k.val + j') h = _
  rw [Finset.sum_range]
  exact Finset.sum_congr rfl fun j _ => Rows.contrib_rows m c k j h

/-- The host tail — the sum of the output array from 0.0, over the constant 10⁶ — is the mean loss of the arguments. -/
theorem result_eq (c : Dev nD) :
    Pipeline.afterTail₀ cfgs (dats m) 0 (V0 m) [hostOps1] c main_v7
      = fun _ => meanLoss (m ((c.tc : Thread nD τ).loc main_arg0)) (m ((c.tc : Thread nD τ).loc main_arg2)) (m ((c.tc : Thread nD τ).loc main_arg1)) (m ((c.tc : Thread nD τ).loc main_arg3)) := by
  unfold Pipeline.afterTail₀
  show StableHlo.after hostOps1 _ (Proc.devRef .tc main_v7) = _
  after_results
  have hout : Pipeline.withArrays (cfgs 0).spec c (V0 m c) (fun w => (dats m 0 c).arrAt w (cfgs 0).N) (Proc.tc.devRef main_v5)
      = tile (coreSum m c) :=
    (Pipeline.withArrays_arr spec0 launch0.win.arr_inj c _ _ 3).trans (final_out m c)
  rw [hout]
  funext i
  rw [hostDivf_apply, hostReduceAdd_apply, Ideal.hostReduceAdd_total _ (fun b => b.elim0), total_eq]
  unfold meanLoss
  simp only [constant_apply, Ideal.ofBits_zero_f32, zero_add]

/-- THE KERNEL'S RUN at the ideal instance: every weakly fair execution terminates with the result at the mean loss of
    the arguments, and the arguments unchanged. -/
theorem run : θ_run defs (onTc (τ := τ) (main (F := Ideal))) ⟨m, fun _ => 0, ρ⟩ fun r => ∀ c : Dev nD,
      r.2.mem ((c.tc : Thread nD τ).loc main_v7)
        = (fun _ => meanLoss (m ((c.tc : Thread nD τ).loc main_arg0)) (m ((c.tc : Thread nD τ).loc main_arg2)) (m ((c.tc : Thread nD τ).loc main_arg1)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v7 (Pipeline.mem_restRefs_of main_v7 (by decide) (by decide))).trans (result_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.KernelIdeal.Result

end
-- ==== Proof.RefLoss.lean ====
/-
  The reference computes `meanLoss`: its result stage, read one operation at a time at an index, is the sum over the
  10⁶ rows of `rowLoss` divided by the constant 10⁶. The host's two sums start from the constant 0.0, which adds
  nothing; the row sum runs over the 64 coordinates of the row, the final sum over every row.
-/
import proofs.«400209_j55611236548990_4_alg».proof.Proof.Gen.ReferenceIdeal.Read
import proofs.«400209_j55611236548990_4_alg».proof.Proof.Loss
import Idealize.ShloMosaic.Lib.ValueIdxRank1

noncomputable section

namespace Cert.Loss.Reference

open Cert.ReferenceIdeal Cert.ReferenceIdeal.Read Idealize.ShloMosaic Idealize.ShloMosaic.ValueIdx Cert.Loss

/-- The reference's row sum at row `i` is the squared distance of that row. -/
theorem rowSum_eq (x1 x3 : S1000000x64.Idx → EReal) (i : Fin 1000000) :
    val_main_v2 (F := Ideal) x1 x3 (ix1 i) = sqDist x1 x3 i := by
  rw [val_main_v2_apply]
  simp only [val_main_cst_apply, val_main_v1_apply, val_main_v0_apply, Ideal.ofBits_def, Ideal.ofBits_zero_f32,
    zero_add, Ideal.subf_def, Ideal.mulf_def]
  unfold sqDist
  refine Finset.sum_congr rfl fun k _ => ?_
  have e : idx_main_v2 (ix1 i) k = ix2 i k :=
    funext fun a => Fin.ext (by match a with | ⟨0, _⟩ => rfl | ⟨1, _⟩ => rfl)
  rw [e]

/-- The reference's selected value at row `i` is the row's loss. -/
theorem selected_eq (x0 x2 : S1000000.Idx → BitVec 32) (x1 x3 : S1000000x64.Idx → EReal) (i : Fin 1000000) :
    val_main_v8 (F := Ideal) x0 x1 x2 x3 (ix1 i) = rowLoss x0 x2 x1 x3 i := by
  rw [val_main_v8_apply, val_main_v7_apply, val_main_v5_apply, val_main_v4_apply, val_main_v6_apply,
    val_main_cst_0_apply, val_main_cst_1_apply, val_main_v3_apply, rowSum_eq]
  simp only [Ideal.ofBits_def, Ideal.ofBits_zero_f32, Ideal.subf_def, Ideal.maximumf_def]
  rfl

/-- The reference's result is the mean loss of its arguments. -/
theorem result_eq (x0 x2 : S1000000.Idx → BitVec 32) (x1 x3 : S1000000x64.Idx → EReal) :
    val_main_v10 (F := Ideal) x0 x1 x2 x3 = fun _ => meanLoss x0 x2 x1 x3 := by
  funext i
  rw [val_main_v10_apply, val_main_v9_apply, val_main_cst_2_apply, val_main_cst_3_apply]
  simp only [Ideal.ofBits_def, Ideal.ofBits_zero_f32, zero_add, Ideal.hostDivf_def]
  unfold meanLoss
  refine congrArg (fun t => Ideal.div t (Ideal.ofBits .f32 0x49742400#32)) ?_
  rw [← Equiv.sum_comp (idxEquiv1 (n := 1000000)).symm]
  exact Finset.sum_congr rfl fun i _ => selected_eq x0 x2 x1 x3 i

end Cert.Loss.Reference

end
-- ==== Proof.lean ====
/-
  Both programs compute the mean contrastive loss of a batch of 10⁶ rows: row i has the squared distance
  d i = ∑ₖ (a i k − b i k)² over its 64 coordinates; its loss is d i when its two labels agree and max (1 − d i) 0 when
  they differ; the result is the sum of the row losses over the constant 10⁶.

  The reference computes exactly that, one host operation after another. The kernel views the batch as 500000 row pairs
  of 128 lanes, gives each of two cores 25 blocks of 10000 pairs, and in each core keeps two running sums (one per half
  of the pair) in the corner of an accumulator that starts from zero at the core's first block and is copied out after
  its last; the host then adds up the two cores' output blocks, whose other entries are zero, and divides by the same
  constant. The two results are equal on the extended reals because the rows are the same rows in another grouping and
  addition there is commutative and associative: no hypothesis on the inputs is used.

  The frames of the two kernel programs are the generated ones; the reference's frame is its generated run with the result
  dropped; the ideal pass rewrote nothing, so the preservation claim is trivial.
-/
import proofs.«400209_j55611236548990_4_alg».proof.Defs
import proofs.«400209_j55611236548990_4_alg».proof.Proof.Gen.Kernel
import proofs.«400209_j55611236548990_4_alg».proof.Proof.Gen.Kernel.Skeleton
import proofs.«400209_j55611236548990_4_alg».proof.Proof.Gen.Kernel.Launch
import proofs.«400209_j55611236548990_4_alg».proof.Proof.Gen.Kernel.Points
import proofs.«400209_j55611236548990_4_alg».proof.Proof.Gen.Kernel.Frame
import proofs.«400209_j55611236548990_4_alg».proof.Proof.Gen.KernelIdeal
import proofs.«400209_j55611236548990_4_alg».proof.Proof.Gen.KernelIdeal.Skeleton
import proofs.«400209_j55611236548990_4_alg».proof.Proof.Gen.KernelIdeal.Launch
import proofs.«400209_j55611236548990_4_alg».proof.Proof.Gen.KernelIdeal.Points
import proofs.«400209_j55611236548990_4_alg».proof.Proof.Gen.KernelIdeal.Frame
import proofs.«400209_j55611236548990_4_alg».proof.Proof.Gen.ReferenceIdeal
import proofs.«400209_j55611236548990_4_alg».proof.Proof.Gen.Pre_finite_inputs
import proofs.«400209_j55611236548990_4_alg».proof.Proof.Gen.ReferenceIdeal.Run
import proofs.«400209_j55611236548990_4_alg».proof.Proof.Gen.ReferenceIdeal.Read
import proofs.«400209_j55611236548990_4_alg».proof.Proof.Result
import proofs.«400209_j55611236548990_4_alg».proof.Proof.RefLoss
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments, the kernel's run ends with its result at the mean loss of the arguments and
    the reference's run with its result at the same mean loss. -/
theorem algebraic : Cert.algebraic_KernelIdeal_ReferenceIdeal := by
  intro m ρ m' ρ' _ hagree
  refine ⟨fun c => fun _ => Cert.Loss.meanLoss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3)),
    Cert.KernelIdeal.Result.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v10_eq, Cert.Loss.Reference.result_eq,
    (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
